-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S4096x410 : Shape := ⟨2, ![4096, 410]⟩
abbrev S410 : Shape := ⟨1, ![410]⟩
abbrev S4096x4096 : Shape := ⟨2, ![4096, 4096]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S4096x410 : S_.BroadcastsInDim S4096x410 (![] : Fin 0 → Fin S4096x410.rank)
  reducesTo_S4096x410_S_d0_1 : S4096x410.ReducesTo [0, 1] S_
  bcast_S_S410 : S_.BroadcastsInDim S410 (![] : Fin 0 → Fin S410.rank)
  reducesTo_S410_S_d0 : S410.ReducesTo [0] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg4 : FVec F S4096x4096 .f32) (main_v13 : IVec S_ 1) (main_v16 : IVec S4096x410 1) : IVec S_ 1 :=
  let main_c_5 : IVec S_ 1 := constantI S_ 1 1#1
  let main_v17 : IVec S_ 1 := (fun x v => Host.reduce IntOp.andi x v reducesTo_S4096x410_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  main_v23

def fn {F : FTy → Type} [FloatOps F] (main_arg0 : FVec F S1024x4096 .f32) (main_arg1 : FVec F S4096x410 .f32) (main_arg2 : FVec F S410 .f32) (main_arg3 : FVec F S4096x410 .f32) (main_arg4 : FVec F S4096x4096 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S4096x410 .f32 := Host.absf main_arg1
  let main_cst_0 : FVec F S_ .f32 := constant S_ .f32 0x7F800000#32
  let main_v5 : FVec F S4096x410 .f32 := broadcastInDim S4096x410 ![] bcast_S_S4096x410 main_cst_0
  let main_v6 : IVec S4096x410 1 := cmpf .olt main_v4 main_v5
  let main_c_1 : IVec S_ 1 := constantI S_ 1 1#1
  let main_v7 : IVec S_ 1 := (fun x v => Host.reduce IntOp.andi x v reducesTo_S4096x410_S_d0_1 h_S_) main_v6 main_c_1
  let main_v8 : IVec S_ 1 := andi main_v3 main_v7
  let main_v9 : FVec F S410 .f32 := Host.absf main_arg2
  let main_cst_2 : FVec F S_ .f32 := constant S_ .f32 0x7F800000#32
  let main_v10 : FVec F S410 .f32 := broadcastInDim S410 ![] bcast_S_S410 main_cst_2
  let main_v11 : IVec S410 1 := cmpf .olt main_v9 main_v10
  let main_c_3 : IVec S_ 1 := constantI S_ 1 1#1
  let main_v12 : IVec S_ 1 := (fun x v => Host.reduce IntOp.andi x v reducesTo_S410_S_d0 h_S_) main_v11 main_c_3
  let main_v13 : IVec S_ 1 := andi main_v8 main_v12
  let main_v14 : FVec F S4096x410 .f32 := Host.absf main_arg3
  let main_cst_4 : FVec F S_ .f32 := constant S_ .f32 0x7F800000#32
  let main_v15 : FVec F S4096x410 .f32 := broadcastInDim S4096x410 ![] bcast_S_S4096x410 main_cst_4
  let main_v16 : IVec S4096x410 1 := cmpf .olt main_v14 main_v15
  fn_part1 (F := F) main_arg4 main_v13 main_v16
-- ==== Kernel.lean ====
abbrev S1024x4096 : Shape := ⟨2, ![1024, 4096]⟩
abbrev S4096x410 : Shape := ⟨2, ![4096, 410]⟩
abbrev S410 : Shape := ⟨1, ![410]⟩
abbrev S4096x4096 : Shape := ⟨2, ![4096, 4096]⟩
abbrev S1024x512 : Shape := ⟨2, ![1024, 512]⟩
abbrev S1024x410 : Shape := ⟨2, ![1024, 410]⟩
abbrev S512x410 : Shape := ⟨2, ![512, 410]⟩
abbrev S1024x1024 : Shape := ⟨2, ![1024, 1024]⟩
abbrev S1x410 : Shape := ⟨2, ![1, 410]⟩
abbrev S410x512 : Shape := ⟨2, ![410, 512]⟩
abbrev S512x1024 : Shape := ⟨2, ![512, 1024]⟩

abbrev nBuf : Space → Nat
  | .hbm => 6
  | .vmem => 12
  | .smem => 0
  | _ => 0

abbrev bufTy : (tb : Table) → Fin (tcTables nBuf tb) → BufTy
  | .hbm, ⟨0, _⟩ => ⟨S1024x4096, .f32⟩
  | .hbm, ⟨1, _⟩ => ⟨S4096x410, .f32⟩
  | .hbm, ⟨2, _⟩ => ⟨S410, .f32⟩
  | .hbm, ⟨3, _⟩ => ⟨S4096x410, .f32⟩
  | .hbm, ⟨4, _⟩ => ⟨S4096x4096, .f32⟩
  | .hbm, ⟨5, _⟩ => ⟨S1024x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x410, .f32⟩
  | .local _ .vmem, ⟨5, _⟩ => ⟨S1024x410, .f32⟩
  | .local _ .vmem, ⟨6, _⟩ => ⟨S512x410, .f32⟩
  | .local _ .vmem, ⟨7, _⟩ => ⟨S512x410, .f32⟩
  | .local _ .vmem, ⟨8, _⟩ => ⟨S410, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_14 : BitVec 32 := 0#32
  let v27 : BitVec 1 := Scalar.cmpi .ne v26 c0_i32_14
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x410 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x410 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S410 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x410_S1024x410_0_0 : ∀ a, (![0, 0] : Fin 2 → Nat) a + S1024x410.size a ≤ S1024x410.size a
  h_S1024x410 : 0 < S1024x410.numel
  inb_S512x410_S512x410_0_0 : ∀ a, (![0, 0] : Fin 2 → Nat) a + S512x410.size a ≤ S512x410.size a
  h_S512x410 : 0 < S512x410.numel
  inb_S410_S410_0 : ∀ a, (![0] : Fin 1 → Nat) a + S410.size a ≤ S410.size a
  h_S410 : 0 < S410.numel
  shapeCasts_S410_S1x410 : S410.ShapeCasts S1x410
  broadcasts_S1x410_S1024x410 : S1x410.Broadcasts S1024x410
  bitsLt_bf16_f32 : FTy.bits .bf16 < FTy.bits .f32
  transposes_S512x410_p1_0_S410x512 : S512x410.Transposes [1, 0] S410x512
  inb_S1024x512_S1024x512_0_0 : ∀ a, (![0, 0] : Fin 2 → Nat) a + S1024x512.size a ≤ S1024x512.size a
  h_S1024x512 : 0 < S1024x512.numel
  transposes_S1024x512_p1_0_S512x1024 : S1024x512.Transposes [1, 0] S512x1024
  dot_S1024x410_S410x512_S1024x512_1_0_0_1_n_n_wf : DotDims.WF S1024x410 S410x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x4096.size a
  hwx0_0 : ∀ i : grid0.Coords, EltTy.bits .f32 = 32 ∨ (Rect.block (s := S1024x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x410.size a ≤ S4096x410.size a
  hwx0_2 : ∀ i : grid0.Coords, EltTy.bits .f32 = 32 ∨ (Rect.block (s := S4096x410) S1024x410.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x410.size a ≤ S4096x410.size a
  hwx0_3 : ∀ i : grid0.Coords, EltTy.bits .f32 = 32 ∨ (Rect.block (s := S4096x410) S512x410.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S410.size a ≤ S410.size a
  hwx0_4 : ∀ i : grid0.Coords, EltTy.bits .f32 = 32 ∨ (Rect.block (s := S410) S410.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x4096.size a
  hwx0_5 : ∀ i : grid0.Coords, EltTy.bits .f32 = 32 ∨ (Rect.block (s := S1024x4096) S1024x1024.size (cc0_transform_5 i) (hinb0_5 i)).WholeWords (EltTy.packing .f32)

variable [Facts₀]

def dot_S1024x410_S410x512_S1024x512_1_0_0_1_n_n : DotDims S1024x410 S410x512 S1024x512 where
  lhsContracting := [1]
  rhsContracting := [0]
  lhsNonContracting := [0]
  rhsNonContracting := [1]
  lhsBatch := []
  rhsBatch := []
  wf := dot_S1024x410_S410x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x410.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x410.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S410.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S1024x4096 : Shape := ⟨2, ![1024, 4096]⟩
abbrev S4096x410 : Shape := ⟨2, ![4096, 410]⟩
abbrev S410 : Shape := ⟨1, ![410]⟩
abbrev S4096x4096 : Shape := ⟨2, ![4096, 4096]⟩
abbrev S1x410 : Shape := ⟨2, ![1, 410]⟩
abbrev S410x4096 : Shape := ⟨2, ![410, 4096]⟩

abbrev nBuf : Space → Nat
  | .hbm => 13
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x410, .f32⟩
  | .hbm, ⟨2, _⟩ => ⟨S410, .f32⟩
  | .hbm, ⟨3, _⟩ => ⟨S4096x410, .f32⟩
  | .hbm, ⟨4, _⟩ => ⟨S4096x4096, .f32⟩
  | .hbm, ⟨5, _⟩ => ⟨S1x410, .f32⟩
  | .hbm, ⟨6, _⟩ => ⟨S4096x410, .f32⟩
  | .hbm, ⟨7, _⟩ => ⟨S4096x410, .f32⟩
  | .hbm, ⟨8, _⟩ => ⟨S410x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S410_S1x410_1 : S410.BroadcastsInDim S1x410 (![1] : Fin 1 → Fin S1x410.rank)
  bcast_S1x410_S4096x410_0_1 : S1x410.BroadcastsInDim S4096x410 (![0, 1] : Fin 2 → Fin S4096x410.rank)
  transposes_S4096x410_S410x4096_1_0 : S4096x410.Transposes [1, 0] S410x4096
  transposes_S4096x4096_S4096x4096_1_0 : S4096x4096.Transposes [1, 0] S4096x4096
  dot_S4096x410_S410x4096_S4096x4096_1_0_0_1_n_n_wf : DotDims.WF S4096x410 S410x4096 S4096x4096 [1] [0] [0] [1] [] []
  dot_S1024x4096_S4096x4096_S1024x4096_1_0_0_1_n_n_wf : DotDims.WF S1024x4096 S4096x4096 S1024x4096 [1] [0] [0] [1] [] []

variable [Facts₀]

def dot_S4096x410_S410x4096_S4096x4096_1_0_0_1_n_n : DotDims S4096x410 S410x4096 S4096x4096 where
  lhsContracting := [1]
  rhsContracting := [0]
  lhsNonContracting := [0]
  rhsNonContracting := [1]
  lhsBatch := []
  rhsBatch := []
  wf := dot_S4096x410_S410x4096_S4096x4096_1_0_0_1_n_n_wf
def dot_S1024x4096_S4096x4096_S1024x4096_1_0_0_1_n_n : DotDims S1024x4096 S4096x4096 S1024x4096 where
  lhsContracting := [1]
  rhsContracting := [0]
  lhsNonContracting := [0]
  rhsNonContracting := [1]
  lhsBatch := []
  rhsBatch := []
  wf := dot_S1024x4096_S4096x4096_S1024x4096_1_0_0_1_n_n_wf

class Facts : Prop extends Facts₀ where

variable [Facts]
-- ==== Proof.Step.lean ====
/-
  What one grid step leaves behind, as values. The kernel keeps a [1024, 1024] accumulator in a scratch buffer:
  the step at the first reduction block zeroes it, every step adds that block's product into it, and the step at the
  last reduction block copies it to the output block. Whatever the step, the accumulator afterwards is ONE function
  `step` of the five input blocks and of what the accumulator held before (the zero block at a first step), and the
  output block written at a last step is the very same value.
-/
import proofs.«101790_j77240691851703_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Step

open Cert.KernelIdeal Cert.KernelIdeal.Gen

variable {F : FTy → Type} [FloatOps F]

theorem hz : (![0, 0] : Fin 2 → Nat) = fun _ => 0 := funext fun a => by fin_cases a <;> rfl
theorem hz1 : (![0] : Fin 1 → Nat) = fun _ => 0 := funext fun a => by fin_cases a; rfl

/-- One step's new accumulator: the old one plus tokens-block × (weight-block + low-rank block)ᵀ, as the body spells it.
    The blocks are named by what they hold: `x` the tokens' block, `w` the weight's, `u` and `v` the two factors', `s` the
    singular values. -/
abbrev step (x : Vec F S1024x512 .f32) (w : Vec F S1024x512 .f32) (u : Vec F S1024x410 .f32) (v : Vec F S512x410 .f32)
    (s : Vec F S410 .f32) (acc : Vec F S1024x1024 .f32) : Vec F S1024x1024 .f32 :=
  k0_pay2 u v s w x acc

/-- The zero block a first step stores before it accumulates. -/
abbrev zero : Vec F S1024x1024 .f32 := k0_pay1

/-- A first step (first reduction block): the accumulator, whatever it held, is zeroed, read back, and ends at
    `step … zero`. -/
theorem sout_A (c : Dev nD) (i : grid0.Coords) (a2 : Memref sig .tc .vmem S1024x512 .f32) (h2 : a2.IsWhole) (a3 : Memref sig .tc .vmem S1024x512 .f32) (h3 : a3.IsWhole) (a4 : Memref sig .tc .vmem S1024x410 .f32) (h4 : a4.IsWhole) (a5 : Memref sig .tc .vmem S512x410 .f32) (h5 : a5.IsWhole) (a6 : Memref sig .tc .vmem S410 .f32) (h6 : a6.IsWhole) (a7 : Memref sig .tc .vmem S1024x1024 .f32) (h7 : a7.IsWhole) (a8 : Memref sig .tc .vmem S1024x1024 .f32) (h8 : a8.IsWhole) (hc0 : cond0_0 i) (hc1 : ¬cond0_1 i)
    (x0 : Vec F S1024x512 .f32) (x1 : Vec F S1024x512 .f32) (x2 : Vec F S1024x410 .f32) (x3 : Vec F S512x410 .f32) (x4 : Vec F S410 .f32) :
    sout0_A_0 c i a2 h2 a3 h3 a4 h4 a5 h5 a6 h6 a7 h7 a8 h8 hc0 hc1 x0 x1 x2 x3 x4 = step x0 x1 x2 x3 x4 zero := by
  unfold sout0_A_0
  rw [View.read_writes_eq_canon _ _ _ (scover0_A_0 c i a2 h2 a3 h3 a4 h4 a5 h5 a6 h6 a7 h7 a8 h8 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, h2.read_unread, h3.read_unread, h4.read_unread, h5.read_unread, h6.read_unread, h8.read_unread,
    View.ld_unit_zero (S := S1024x512) hz, View.ld_unit_zero (S := S1024x410) hz, View.ld_unit_zero (S := S512x410) hz,
    View.ld_unit_zero (S := S1024x1024) hz, View.ld_unit_zero (S := S410) hz1]

/-- A middle step (neither first nor last reduction block): the accumulator holding `acc` ends at `step … acc`. -/
theorem sout_B (c : Dev nD) (i : grid0.Coords) (a2 : Memref sig .tc .vmem S1024x512 .f32) (h2 : a2.IsWhole) (a3 : Memref sig .tc .vmem S1024x512 .f32) (h3 : a3.IsWhole) (a4 : Memref sig .tc .vmem S1024x410 .f32) (h4 : a4.IsWhole) (a5 : Memref sig .tc .vmem S512x410 .f32) (h5 : a5.IsWhole) (a6 : Memref sig .tc .vmem S410 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : ¬cond0_1 i)
    (x0 : Vec F S1024x512 .f32) (x1 : Vec F S1024x512 .f32) (x2 : Vec F S1024x410 .f32) (x3 : Vec F S512x410 .f32) (x4 : Vec F S410 .f32) (acc : Vec F S1024x1024 .f32) :
    sout0_B_0 c i a2 h2 a3 h3 a4 h4 a5 h5 a6 h6 a7 h7 a8 h8 hc0 hc1 x0 x1 x2 x3 x4 acc = step x0 x1 x2 x3 x4 acc := by
  unfold sout0_B_0
  rw [View.read_writes_eq_canon _ _ _ (scover0_B_0 c i a2 h2 a3 h3 a4 h4 a5 h5 a6 h6 a7 h7 a8 h8 hc0 hc1 x0 x1 x2 x3 x4 acc)]
  unfold kernelRun0_B
  dsimp only
  sl_unfold_words
  rw [View.canon_unit_zero hz]
  simp only [View.readAt_eq_ld, h2.read_unread, h3.read_unread, h4.read_unread, h5.read_unread, h6.read_unread, h8.read_unread,
    View.ld_unit_zero (S := S1024x512) hz, View.ld_unit_zero (S := S1024x410) hz, View.ld_unit_zero (S := S512x410) hz,
    View.ld_unit_zero (S := S1024x1024) hz, View.ld_unit_zero (S := S410) hz1]

/-- A last step (last reduction block): the accumulator holding `acc` ends at `step … acc` as at a middle step, -/
theorem sout_C (c : Dev nD) (i : grid0.Coords) (a2 : Memref sig .tc .vmem S1024x512 .f32) (h2 : a2.IsWhole) (a3 : Memref sig .tc .vmem S1024x512 .f32) (h3 : a3.IsWhole) (a4 : Memref sig .tc .vmem S1024x410 .f32) (h4 : a4.IsWhole) (a5 : Memref sig .tc .vmem S512x410 .f32) (h5 : a5.IsWhole) (a6 : Memref sig .tc .vmem S410 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : cond0_1 i)
    (x0 : Vec F S1024x512 .f32) (x1 : Vec F S1024x512 .f32) (x2 : Vec F S1024x410 .f32) (x3 : Vec F S512x410 .f32) (x4 : Vec F S410 .f32) (acc : Vec F S1024x1024 .f32) :
    sout0_C_0 c i a2 h2 a3 h3 a4 h4 a5 h5 a6 h6 a7 h7 a8 h8 hc0 hc1 x0 x1 x2 x3 x4 acc = step x0 x1 x2 x3 x4 acc := by
  unfold sout0_C_0
  rw [View.read_writes_eq_canon _ _ _ (scover0_C_0 c i a2 h2 a3 h3 a4 h4 a5 h5 a6 h6 a7 h7 a8 h8 hc0 hc1 x0 x1 x2 x3 x4 acc)]
  unfold kernelRun0_C
  dsimp only
  sl_unfold_words
  rw [View.canon_unit_zero hz]
  simp only [View.readAt_eq_ld, h2.read_unread, h3.read_unread, h4.read_unread, h5.read_unread, h6.read_unread, h8.read_unread,
    View.ld_unit_zero (S := S1024x512) hz, View.ld_unit_zero (S := S1024x410) hz, View.ld_unit_zero (S := S512x410) hz,
    View.ld_unit_zero (S := S1024x1024) hz, View.ld_unit_zero (S := S410) hz1]

/-- and the output block it then stores is the accumulator read back: the same value. -/
theorem out_C (c : Dev nD) (i : grid0.Coords) (a2 : Memref sig .tc .vmem S1024x512 .f32) (h2 : a2.IsWhole) (a3 : Memref sig .tc .vmem S1024x512 .f32) (h3 : a3.IsWhole) (a4 : Memref sig .tc .vmem S1024x410 .f32) (h4 : a4.IsWhole) (a5 : Memref sig .tc .vmem S512x410 .f32) (h5 : a5.IsWhole) (a6 : Memref sig .tc .vmem S410 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : cond0_1 i)
    (x0 : Vec F S1024x512 .f32) (x1 : Vec F S1024x512 .f32) (x2 : Vec F S1024x410 .f32) (x3 : Vec F S512x410 .f32) (x4 : Vec F S410 .f32) (acc : Vec F S1024x1024 .f32) :
    out0_C_5 c i a2 h2 a3 h3 a4 h4 a5 h5 a6 h6 a7 h7 a8 h8 hc0 hc1 x0 x1 x2 x3 x4 acc = step x0 x1 x2 x3 x4 acc := by
  unfold out0_C_5
  rw [View.read_writes_eq_canon _ _ _ (cover0_C_5 c i a2 h2 a3 h3 a4 h4 a5 h5 a6 h6 a7 h7 a8 h8 hc0 hc1 x0 x1 x2 x3 x4 acc)]
  unfold kernelRun0_C
  dsimp only
  sl_unfold_words
  rw [View.canon_unit_zero hz, View.readCov_unit_zero (S := S1024x1024) _ hz]
  simp only [View.readAt_eq_ld, h2.read_unread, h3.read_unread, h4.read_unread, h5.read_unread, h6.read_unread, h8.read_unread,
    View.ld_unit_zero (S := S1024x512) hz, View.ld_unit_zero (S := S1024x410) hz, View.ld_unit_zero (S := S512x410) hz,
    View.ld_unit_zero (S := S1024x1024) hz, View.ld_unit_zero (S := S410) hz1]

end Cert.KernelIdeal.Step

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.StepAt.lean ====
/-
  One grid step, read entry by entry over the extended reals: the accumulator's entry (p, n) gains
      Σ_kk x (p, kk) · ( w (n, kk) + Σ_r (u (n, r) · s r) · v (kk, r) ),
  the step's 512 terms of the reduction sum. Both matrix products start from a zero accumulator, so each is just its sum;
  the narrowings to bf16 and the shape casts change nothing at this instance.
-/
import proofs.«101790_j77240691851703_1_alg».proof.Proof.Step
import proofs.«101790_j77240691851703_1_alg».proof.Proof.LibRowDims
import Idealize.ShloMosaic.Lib.ValueLayout
import Idealize.ShloMosaic.Lib.ValueIdx
import Idealize.ShloMosaic.PureOps.Ideal.Laws

noncomputable section

open scoped BigOperators
open Idealize.ShloMosaic Idealize.ShloMosaic.TcCoe Idealize.SL.Sem

namespace Cert.KernelIdeal.Step

open Cert.KernelIdeal Cert.KernelIdeal.Gen Idealize.ShloMosaic.ValueIdx

/-- The zero block is zero at every entry. -/
theorem zero_apply (y : S1024x1024.Idx) : (zero (F := Ideal)) y = 0 := by
  unfold zero k0_pay1
  simp only [shapeCast_self]
  show Ideal.ofBits .f32 0x00000000#32 = 0
  exact Ideal.ofBits_zero_f32

/-- The low-rank block at (n, kk): Σ_r (u (n, r) · s r) · v (kk, r) — the singular values broadcast along the rows of `u`,
    the second factor transposed, one matrix product into a zero accumulator; the narrowing to bf16 is the identity. -/
theorem lowrank_apply (u : FVec Ideal S1024x410 .f32) (v : FVec Ideal S512x410 .f32) (s : FVec Ideal S410 .f32)
    (n : Fin 1024) (kk : Fin 512) :
    matmul (F := Ideal) dot_S1024x410_S410x512_S1024x512_1_0_0_1_n_n none
        (truncf FTy.bf16 (mulf u (broadcastTo S1024x410 (shapeCast S1x410 s shapeCasts_S410_S1x410) broadcasts_S1x410_S1024x410)) bitsLt_bf16_f32)
        (transpose S410x512 [1, 0] (truncf FTy.bf16 v bitsLt_bf16_f32) transposes_S512x410_p1_0_S410x512)
        (constant S1024x512 FTy.f32 0x00000000#32) (ix2 n kk)
      = ∑ r : Fin 410, (u (ix2 n r) * s (ix1 r)) * v (ix2 kk r) := by
  refine (RowDims.matmul_plain_zero_apply none _ _ n kk).trans ?_
  refine Finset.sum_congr rfl fun r _ => ?_
  rw [transpose_ix2_apply]
  show (u (ix2 n r) * broadcastTo S1024x410 (shapeCast S1x410 s shapeCasts_S410_S1x410) broadcasts_S1x410_S1024x410 (ix2 n r)) * v (ix2 kk r) = _
  rw [broadcastTo_1b_ab_apply, shapeCast_a_1a_apply]

/-- One step at entry (p, n) of the block: the old accumulator plus the block's part of the reduction sum,
    Σ_kk x (p, kk) · (w (n, kk) + low-rank (n, kk)) — the merged block transposed, one matrix product into a zero
    accumulator, added to what was there. -/
theorem step_apply (x w : Vec Ideal S1024x512 .f32) (u : Vec Ideal S1024x410 .f32) (v : Vec Ideal S512x410 .f32)
    (s : Vec Ideal S410 .f32) (acc : Vec Ideal S1024x1024 .f32) (p n : Fin 1024) :
    step x w u v s acc (ix2 p n) = acc (ix2 p n) + ∑ kk : Fin 512, x (ix2 p kk) * (w (ix2 n kk) + ∑ r : Fin 410, (u (ix2 n r) * s (ix1 r)) * v (ix2 kk r)) := by
  unfold step k0_pay2
  simp only [shapeCast_self]
  show acc (ix2 p n) + _ = _
  congr 1
  refine (RowDims.matmul_plain_zero_apply none _ _ p n).trans ?_
  refine Finset.sum_congr rfl fun kk _ => ?_
  rw [transpose_ix2_apply]
  show x (ix2 p kk) * (w (ix2 n kk) + _) = _
  rw [lowrank_apply]

end Cert.KernelIdeal.Step

end
-- ==== Proof.Spec.lean ====
/-
  The function both programs compute, over the extended reals, entry by entry:
      result (t, n) = Σ_k  X (t, k) · ( W (n, k) + Σ_r (U (n, r) · σ r) · V (k, r) )
  for tokens X [1024, 4096], a weight W [4096, 4096] and its low-rank correction U · diag σ · Vᵀ of rank 410.
  The kernel reaches it by cutting the reduction coordinate k into 8 blocks of 512 and the output columns n into 4
  blocks of 1024, one grid step per pair (column block, reduction block), the reduction block moving fastest.
  Regrouping a finite sum needs only that addition is commutative and associative, which it is on the extended reals:
  no finiteness is used anywhere.
-/
import Idealize.ShloMosaic.PureOps.Ideal
import Idealize.ShloMosaic.Lib.ValueIdx

noncomputable section

open scoped BigOperators

namespace Cert.SvdLinear

open Idealize.ShloMosaic Idealize.ShloMosaic.ValueIdx

/-- Tokens by features: the input and the result. -/
abbrev Tok : Shape := ⟨2, ![1024, 4096]⟩
/-- A low-rank factor: features by rank. -/
abbrev Fac : Shape := ⟨2, ![4096, 410]⟩
/-- The singular values. -/
abbrev Sv : Shape := ⟨1, ![410]⟩
/-- The dense weight: output features by input features. -/
abbrev Wt : Shape := ⟨2, ![4096, 4096]⟩
/-- One output block: tokens by a block of output features. -/
abbrev Blk : Shape := ⟨2, ![1024, 1024]⟩

section
variable (X : Tok.Idx → EReal) (U : Fac.Idx → EReal) (sg : Sv.Idx → EReal) (Vm : Fac.Idx → EReal) (W : Wt.Idx → EReal)

/-- Entry (n, k) of the merged weight `W + U · diag σ · Vᵀ`. -/
def merged (n k : Fin 4096) : EReal :=
  W (ix2 n k) + ∑ r : Fin 410, (U (ix2 n r) * sg (ix1 r)) * Vm (ix2 k r)

/-- The result: tokens times the merged weight transposed. -/
def result : Tok.Idx → EReal := fun i =>
  ∑ k : Fin 4096, X (ix2 (i 0) k) * merged U sg Vm W (i 1) k

/-- The reduction coordinate that grid step `n` reads at position `kk` of its block: block `n mod 8`. -/
def col (n : Nat) (kk : Fin 512) : Fin 4096 :=
  ⟨512 * (n % 8) + kk.val, by have := kk.isLt; have := Nat.mod_lt n (show 0 < 8 by decide); omega⟩

/-- The output column that grid step `n` writes at position `q` of its block: block `n / 8` (of four). -/
def row (n : Nat) (q : Fin 1024) : Fin 4096 :=
  ⟨1024 * ((n / 8) % 4) + q.val, by have := q.isLt; have := Nat.mod_lt (n / 8) (show 0 < 4 by decide); omega⟩

/-- What grid step `n` adds to entry `y` of its output block: the part of the reduction sum over its 512 coordinates. -/
def addend (n : Nat) (y : Blk.Idx) : EReal :=
  ∑ kk : Fin 512, X (ix2 (y 0) (col n kk)) * merged U sg Vm W (row n (y 1)) (col n kk)

end

/-- A sum over 4096 coordinates is the sum over 8 blocks of the sums over each block's 512 coordinates. -/
theorem sum_blocks (f : Fin 4096 → EReal) :
    ∑ k : Fin 4096, f k = ∑ b ∈ Finset.range 8, ∑ kk : Fin 512, f (col b kk) := by
  have e : ∑ k : Fin 4096, f k = ∑ p : Fin 8 × Fin 512, f (finProdFinEquiv p) :=
    (Equiv.sum_comp (finProdFinEquiv (m := 8) (n := 512)) f).symm
  rw [e, Fintype.sum_prod_type, Finset.sum_range (fun b => ∑ kk : Fin 512, f (col b kk))]
  refine Finset.sum_congr rfl fun b _ => Finset.sum_congr rfl fun kk _ => ?_
  congr 1
  apply Fin.ext
  show kk.val + 512 * b.val = 512 * (b.val % 8) + kk.val
  have := b.isLt
  omega

/-- The eight steps of column block `q`, added up from zero, give the result's entry in that block. -/
theorem steps_eq_result (X : Tok.Idx → EReal) (U : Fac.Idx → EReal) (sg : Sv.Idx → EReal) (Vm : Fac.Idx → EReal)
    (W : Wt.Idx → EReal) (q : Nat) (hq : q < 4) (y : Blk.Idx) (i : Tok.Idx)
    (h0 : (i 0).val = (y 0).val) (h1 : (i 1).val = 1024 * q + (y 1).val) :
    (0 : EReal) + ∑ s ∈ Finset.range 8, addend X U sg Vm W (8 * q + s) y = result X U sg Vm W i := by
  rw [zero_add]
  unfold result
  rw [sum_blocks]
  refine Finset.sum_congr rfl fun s hs => ?_
  have hs8 : s < 8 := Finset.mem_range.mp hs
  unfold addend
  refine Finset.sum_congr rfl fun kk _ => ?_
  have ec : col (8 * q + s) kk = col s kk := by
    apply Fin.ext; show 512 * ((8 * q + s) % 8) + kk.val = 512 * (s % 8) + kk.val; omega
  have er : row (8 * q + s) (y 1) = i 1 := by
    apply Fin.ext; show 1024 * (((8 * q + s) / 8) % 4) + (y 1).val = (i 1).val; omega
  have e0 : y 0 = i 0 := Fin.ext h0.symm
  rw [ec, er, e0]

end Cert.SvdLinear

end
-- ==== Proof.Blocks.lean ====
/-
  Where each grid step reads. Step `t` of the 4 × 8 grid is the pair (column block `t / 8`, reduction block `t mod 8`).
  It reads: the tokens' columns of its reduction block; the weight's rows of its column block and columns of its
  reduction block; the rows of the first factor in its column block; the rows of the second factor in its reduction
  block; all singular values. A block's coordinate is always (block index) × (block size) + (coordinate inside).
-/
import proofs.«101790_j77240691851703_1_alg».proof.Proof.Gen.KernelIdeal.Frame
import proofs.«101790_j77240691851703_1_alg».proof.Proof.Spec
import Idealize.ShloMosaic.Lib.Pipeline.Value
import Idealize.ShloMosaic.Lib.ValueIdx

noncomputable section

open Idealize.ShloMosaic Idealize.ShloMosaic.TcCoe Idealize.SL.Sem

namespace Cert.KernelIdeal.Blocks

open Cert.KernelIdeal Cert.KernelIdeal.Gen Idealize.ShloMosaic.ValueIdx Cert.SvdLinear

variable {F : FTy → Type} [FloatOps F]
variable (m : (ℓ : Loc nD τ sig) → Buf (Elt F) ℓ)

/-- The printed index maps, decided once over the 32 grid steps. -/
theorem index_facts : ∀ t : Fin cfg0.N,
    win0_0.index t (0 : Fin 2) = 0 ∧ win0_0.index t (1 : Fin 2) = t.val % 8
    ∧ win0_1.index t (0 : Fin 2) = t.val / 8 ∧ win0_1.index t (1 : Fin 2) = t.val % 8
    ∧ win0_2.index t (0 : Fin 2) = t.val / 8 ∧ win0_2.index t (1 : Fin 2) = 0
    ∧ win0_3.index t (0 : Fin 2) = t.val % 8 ∧ win0_3.index t (1 : Fin 2) = 0
    ∧ win0_4.index t (0 : Fin 1) = 0
    ∧ win0_5.index t (0 : Fin 2) = 0 ∧ win0_5.index t (1 : Fin 2) = t.val / 8 :=
  (by decide +kernel : ∀ t : Fin grid0.N, _)

theorem lt_N (t : Fin cfg0.N) : t.val < 32 := lt_of_lt_of_eq t.isLt (show cfg0.N = 32 from N_0)

/-- The five input blocks of step `t`, each at its literal type. -/
abbrev xblk (c : Dev nD) (t : Fin cfg0.N) : Vec F S1024x512 .f32 := iblk m c 0 t
abbrev wblk (c : Dev nD) (t : Fin cfg0.N) : Vec F S1024x512 .f32 := iblk m c 1 t
abbrev ublk (c : Dev nD) (t : Fin cfg0.N) : Vec F S1024x410 .f32 := iblk m c 2 t
abbrev vblk (c : Dev nD) (t : Fin cfg0.N) : Vec F S512x410 .f32 := iblk m c 3 t
abbrev sblk (c : Dev nD) (t : Fin cfg0.N) : Vec F S410 .f32 := iblk m c 4 t

/-- The tokens' block: all 1024 tokens, the 512 columns of the step's reduction block. -/
theorem xblk_apply (c : Dev nD) (t : Fin cfg0.N) (p : Fin 1024) (kk : Fin 512) :
    xblk m c t (ix2 p kk) = m ((c : Thread nD τ).loc main_arg0) (ix2 p (col t.val kk)) := by
  obtain ⟨e0, e1, -⟩ := index_facts t
  unfold xblk iblk
  rw [View.read_apply]
  show V m c main_arg0 _ = m (c.tc.loc main_arg0) _
  unfold V
  congr 1
  funext a
  apply Fin.ext
  match a with
  | ⟨0, _⟩ => show win0_0.index t (0 : Fin 2) * 1024 + 1 * p.val = p.val; rw [e0]; omega
  | ⟨1, _⟩ => show win0_0.index t (1 : Fin 2) * 512 + 1 * kk.val = 512 * (t.val % 8) + kk.val; rw [e1]; omega

/-- The weight's block: the 1024 rows of the step's column block, the 512 columns of its reduction block. -/
theorem wblk_apply (c : Dev nD) (t : Fin cfg0.N) (n : Fin 1024) (kk : Fin 512) :
    wblk m c t (ix2 n kk) = m ((c : Thread nD τ).loc main_arg4) (ix2 (row t.val n) (col t.val kk)) := by
  obtain ⟨-, -, e0, e1, -⟩ := index_facts t
  have hN := lt_N t
  unfold wblk iblk
  rw [View.read_apply]
  show V m c main_arg4 _ = m (c.tc.loc main_arg4) _
  unfold V
  congr 1
  funext a
  apply Fin.ext
  match a with
  | ⟨0, _⟩ => show win0_1.index t (0 : Fin 2) * 1024 + 1 * n.val = 1024 * ((t.val / 8) % 4) + n.val; rw [e0]; omega
  | ⟨1, _⟩ => show win0_1.index t (1 : Fin 2) * 512 + 1 * kk.val = 512 * (t.val % 8) + kk.val; rw [e1]; omega

/-- The first factor's block: the 1024 rows of the step's column block, every rank coordinate. -/
theorem ublk_apply (c : Dev nD) (t : Fin cfg0.N) (n : Fin 1024) (r : Fin 410) :
    ublk m c t (ix2 n r) = m ((c : Thread nD τ).loc main_arg1) (ix2 (row t.val n) r) := by
  obtain ⟨-, -, -, -, e0, e1, -⟩ := index_facts t
  have hN := lt_N t
  unfold ublk iblk
  rw [View.read_apply]
  show V m c main_arg1 _ = m (c.tc.loc main_arg1) _
  unfold V
  congr 1
  funext a
  apply Fin.ext
  match a with
  | ⟨0, _⟩ => show win0_2.index t (0 : Fin 2) * 1024 + 1 * n.val = 1024 * ((t.val / 8) % 4) + n.val; rw [e0]; omega
  | ⟨1, _⟩ => show win0_2.index t (1 : Fin 2) * 410 + 1 * r.val = r.val; rw [e1]; omega

/-- The second factor's block: the 512 rows of the step's reduction block, every rank coordinate. -/
theorem vblk_apply (c : Dev nD) (t : Fin cfg0.N) (kk : Fin 512) (r : Fin 410) :
    vblk m c t (ix2 kk r) = m ((c : Thread nD τ).loc main_arg3) (ix2 (col t.val kk) r) := by
  obtain ⟨-, -, -, -, -, -, e0, e1, -⟩ := index_facts t
  unfold vblk iblk
  rw [View.read_apply]
  show V m c main_arg3 _ = m (c.tc.loc main_arg3) _
  unfold V
  congr 1
  funext a
  apply Fin.ext
  match a with
  | ⟨0, _⟩ => show win0_3.index t (0 : Fin 2) * 512 + 1 * kk.val = 512 * (t.val % 8) + kk.val; rw [e0]; omega
  | ⟨1, _⟩ => show win0_3.index t (1 : Fin 2) * 410 + 1 * r.val = r.val; rw [e1]; omega

/-- The singular values' block: all of them, at every step. -/
theorem sblk_apply (c : Dev nD) (t : Fin cfg0.N) (r : Fin 410) :
    sblk m c t (ix1 r) = m ((c : Thread nD τ).loc main_arg2) (ix1 r) := by
  obtain ⟨-, -, -, -, -, -, -, -, e0, -⟩ := index_facts t
  unfold sblk iblk
  rw [View.read_apply]
  show V m c main_arg2 _ = m (c.tc.loc main_arg2) _
  unfold V
  congr 1
  funext a
  apply Fin.ext
  match a with
  | ⟨0, _⟩ => show win0_4.index t (0 : Fin 1) * 410 + 1 * r.val = r.val; rw [e0]; omega

end Cert.KernelIdeal.Blocks

end
-- ==== Proof.KernelValue.lean ====
/-
  The kernel's result array. The scratch accumulator after any grid step is the fold of `step` over the steps of its
  column block so far, started from the zero block at the block's first step; unrolled, its entry is zero plus the addends
  of those steps. At the last reduction block the output block written back is that accumulator, so its entry is zero plus
  all eight addends: the specification's entry. The four last steps' blocks tile the result array.
-/
import proofs.«101790_j77240691851703_1_alg».proof.Proof.Gen.KernelIdeal.Value
import proofs.«101790_j77240691851703_1_alg».proof.Proof.Step
import proofs.«101790_j77240691851703_1_alg».proof.Proof.StepAt
import proofs.«101790_j77240691851703_1_alg».proof.Proof.Blocks
import proofs.«101790_j77240691851703_1_alg».proof.Proof.Spec
import Idealize.ShloMosaic.Lib.Pipeline.Value
import Idealize.ShloMosaic.Lib.ValueIdx

noncomputable section

open scoped BigOperators
open Idealize.ShloMosaic Idealize.ShloMosaic.TcCoe Idealize.SL.Sem
open Idealize.ShloMosaic.Pipeline (Dat)

namespace Cert.KernelIdeal.Final

open Cert.KernelIdeal Cert.KernelIdeal.Gen Idealize.ShloMosaic.ValueIdx Cert.SvdLinear Cert.KernelIdeal.Blocks

section AnyValues

variable {F : FTy → Type} [FloatOps F]
variable (m : (ℓ : Loc nD τ sig) → Buf (Elt F) ℓ)

/-- At the first step of a column block the accumulator, whatever it held, becomes `step` of the step's blocks from zero. -/
theorem scAt_first (c : Dev nD) (n : ℕ) (hb : n < cfg0.N) (h0 : n % 8 = 0) (acc : Vec F S1024x1024 .f32) :
    Value.scAt0_0 m c n hb acc = Step.step (xblk m c ⟨n, hb⟩) (wblk m c ⟨n, hb⟩) (ublk m c ⟨n, hb⟩) (vblk m c ⟨n, hb⟩) (sblk m c ⟨n, hb⟩) Step.zero := by
  have h1 : ¬n % 8 = 7 := by omega
  unfold Value.scAt0_0
  rw [dif_pos h0, dif_neg h1]
  exact Step.sout_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N))

/-- At every later step it becomes `step` of the step's blocks from what it held. -/
theorem scAt_later (c : Dev nD) (n : ℕ) (hb : n < cfg0.N) (h0 : ¬n % 8 = 0) (acc : Vec F S1024x1024 .f32) :
    Value.scAt0_0 m c n hb acc = Step.step (xblk m c ⟨n, hb⟩) (wblk m c ⟨n, hb⟩) (ublk m c ⟨n, hb⟩) (vblk m c ⟨n, hb⟩) (sblk m c ⟨n, hb⟩) acc := by
  unfold Value.scAt0_0
  rw [dif_neg h0]
  by_cases h1 : n % 8 = 7
  · rw [dif_pos h1]
    exact Step.sout_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc
  · rw [dif_neg h1]
    exact Step.sout_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc

/-- At a last step the output block stored is the accumulator as the step leaves it. -/
theorem out_last (c : Dev nD) (t : Fin cfg0.N) (h7 : t.val % 8 = 7) :
    (outsAt0 m c t.val t.isLt).1 = (outsAt0 m c t.val t.isLt).2 := by
  have h0 : ¬t.val % 8 = 0 := by omega
  rw [outsAt0_C m c t h0 h7]
  dsimp only
  exact (Step.out_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ (iblk m c 0 t) (iblk m c 1 t) (iblk m c 2 t) (iblk m c 3 t) (iblk m c 4 t) (outsAt0 m c (t.val - 1) (Nat.lt_of_le_of_lt (Nat.sub_le _ _) t.isLt)).2).trans
    (Step.sout_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ (iblk m c 0 t) (iblk m c 1 t) (iblk m c 2 t) (iblk m c 3 t) (iblk m c 4 t) (outsAt0 m c (t.val - 1) (Nat.lt_of_le_of_lt (Nat.sub_le _ _) t.isLt)).2).symm

end AnyValues

section Ideal

variable (m : (ℓ : Loc nD τ sig) → Buf (Elt Ideal) ℓ) (ρ : Dev nD → PrngReg)

/-- One step at an entry, in terms of the argument arrays: the old entry plus the step's addend. -/
theorem step_blocks (c : Dev nD) (t : Fin cfg0.N) (acc : Vec Ideal S1024x1024 .f32) (y : S1024x1024.Idx) :
    Step.step (xblk m c t) (wblk m c t) (ublk m c t) (vblk m c t) (sblk m c t) acc y = acc y + addend (m ((c : Thread nD τ).loc main_arg0)) (m ((c : Thread nD τ).loc main_arg1)) (m ((c : Thread nD τ).loc main_arg2)) (m ((c : Thread nD τ).loc main_arg3)) (m ((c : Thread nD τ).loc main_arg4)) t.val y := by
  obtain ⟨p, n, rfl⟩ : ∃ (p n : Fin 1024), y = ix2 p n := ⟨y 0, y 1, eq_ix2 y⟩
  refine (Step.step_apply (xblk m c t) (wblk m c t) (ublk m c t) (vblk m c t) (sblk m c t) acc p n).trans ?_
  congr 1
  unfold addend merged
  refine Finset.sum_congr rfl fun kk _ => ?_
  rw [xblk_apply, wblk_apply]
  congr 2
  refine Finset.sum_congr rfl fun r _ => ?_
  rw [ublk_apply, sblk_apply, vblk_apply]

/-- The accumulator's entry after a last step: zero plus the eight addends of its column block. -/
theorem acc_last (c : Dev nD) (t : Fin cfg0.N) (h7 : t.val % 8 = 7) (y : S1024x1024.Idx) :
    (outsAt0 m c t.val t.isLt).2 y = (0 : EReal) + ∑ s ∈ Finset.range 8, addend (m ((c : Thread nD τ).loc main_arg0)) (m ((c : Thread nD τ).loc main_arg1)) (m ((c : Thread nD τ).loc main_arg2)) (m ((c : Thread nD τ).loc main_arg3)) (m ((c : Thread nD τ).loc main_arg4)) (8 * (t.val / 8) + s) y := by
  rw [Value.soutsAt0_0_eq m c t]
  refine (Pipeline.accAt_add_apply (β := EReal) _ _ (fun _ => (0 : EReal)) (fun n y => addend (m ((c : Thread nD τ).loc main_arg0)) (m ((c : Thread nD τ).loc main_arg1)) (m ((c : Thread nD τ).loc main_arg2)) (m ((c : Thread nD τ).loc main_arg3)) (m ((c : Thread nD τ).loc main_arg4)) n y) (8 * (t.val / 8)) 7 ?_ ?_ (t.val % 8) (by omega) _ y).trans ?_
  · intro h i
    rw [scAt_first m c _ h (by omega)]
    rw [step_blocks m c ⟨8 * (t.val / 8), h⟩ Step.zero i, Step.zero_apply]
  · intro n h acc i hlo hhi
    rw [scAt_later m c n h (by omega) acc]
    exact step_blocks m c ⟨n, h⟩ acc i
  · rw [h7]

/-- What the result array ends holding: the specification of the argument arrays. -/
abbrev result (c : Dev nD) : Buf (Elt Ideal) ((c : Thread nD τ).loc main_v0) :=
  SvdLinear.result (m ((c : Thread nD τ).loc main_arg0)) (m ((c : Thread nD τ).loc main_arg1)) (m ((c : Thread nD τ).loc main_arg2)) (m ((c : Thread nD τ).loc main_arg3)) (m ((c : Thread nD τ).loc main_arg4))

/-- What a last step writes back is its block of the specification. -/
theorem flushed_eq (c : Dev nD) (t : Fin cfg0.N) (hf : (cfg0.win 5).flush t = true) :
    (dats m 0 c).flushed 5 t = ((cfg0.win 5).blk t).view.read (Elt Ideal) (result m c) := by
  have h7 : t.val % 8 = 7 := (flush0_5 t).mp hf
  have hN := lt_N t
  obtain ⟨-, -, -, -, -, -, -, -, -, e0, e1⟩ := index_facts t
  rw [Value.flushed5]
  funext y
  show (outsAt0 m c t.val t.isLt).1 y = result m c (((cfg0.win 5).blk t).view.emb y)
  rw [out_last m c t h7, acc_last m c t h7 y]
  refine steps_eq_result _ _ _ _ _ (t.val / 8) (by omega) y _ ?_ ?_
  · show win0_5.index t (0 : Fin 2) * 1024 + 1 * (y 0).val = (y 0).val
    rw [e0]; omega
  · show win0_5.index t (1 : Fin 2) * 1024 + 1 * (y 1).val = 1024 * (t.val / 8) + (y 1).val
    rw [e1]; omega

/-- An entry of the result array lies in a step's output block iff each coordinate lies in the block's range. -/
theorem mem_blk (t : Fin cfg0.N) (i : S1024x4096.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v0).slice (win0_5.rect t)).set ↔ _
  rw [View.set_slice_whole, Rect.mem_set_unit]
  exact Iff.rfl

/-- Every entry of the result array is written back by the last step of its column block. -/
theorem cover (i : S1024x4096.Idx) : ∃ t : Fin cfg0.N, (cfg0.win 5).flush t = true ∧ i ∈ ((cfg0.win 5).blk t).view.set := by
  have h0 : (i 0).val < 1024 := (i 0).isLt
  have h1 : (i 1).val < 4096 := (i 1).isLt
  have hN : cfg0.N = 32 := N_0
  have hb : 8 * ((i 1).val / 1024) + 7 < cfg0.N := by rw [hN]; omega
  obtain ⟨-, -, -, -, -, -, -, -, -, e0, e1⟩ := index_facts ⟨8 * ((i 1).val / 1024) + 7, hb⟩
  refine ⟨⟨8 * ((i 1).val / 1024) + 7, hb⟩, (flush0_5 _).mpr (by show (8 * ((i 1).val / 1024) + 7) % 8 = 7; omega), ?_⟩
  rw [mem_blk]
  intro a
  match a with
  | ⟨0, _⟩ =>
    show win0_5.index ⟨8 * ((i 1).val / 1024) + 7, hb⟩ (0 : Fin 2) * 1024 ≤ (i 0).val ∧ (i 0).val < win0_5.index ⟨8 * ((i 1).val / 1024) + 7, hb⟩ (0 : Fin 2) * 1024 + 1024
    rw [e0]; omega
  | ⟨1, _⟩ =>
    show win0_5.index ⟨8 * ((i 1).val / 1024) + 7, hb⟩ (1 : Fin 2) * 1024 ≤ (i 1).val ∧ (i 1).val < win0_5.index ⟨8 * ((i 1).val / 1024) + 7, hb⟩ (1 : Fin 2) * 1024 + 1024
    rw [e1]
    show (8 * ((i 1).val / 1024) + 7) / 8 * 1024 ≤ (i 1).val ∧ (i 1).val < (8 * ((i 1).val / 1024) + 7) / 8 * 1024 + 1024
    omega

/-- So the result array ends at the specification. -/
theorem final (c : Dev nD) : (dats m 0 c).arrAt 5 cfg0.N = result m c :=
  (dats m 0 c).arrAt_eq_of_cover 5 (result m c) (flushed_eq m c) cover

/-- The run: the result array at the specification of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Ideal

end Cert.KernelIdeal.Final

end
-- ==== Proof.RefValue.lean ====
/-
  The reference, entry by entry. Its eight host operations — the singular values broadcast along the rows of the first
  factor, a product, the second factor transposed, a contraction over the rank, the sum with the weight, a transpose, a
  contraction over the input features — compose to
      (t, n) ↦ Σ_k X (t, k) · ( W (n, k) + Σ_r (U (n, r) · σ r) · V (k, r) ),
  the specification itself: the two transposes only swap the coordinates the contractions then read.
-/
import proofs.«101790_j77240691851703_1_alg».proof.Proof.Gen.ReferenceIdeal.Read
import proofs.«101790_j77240691851703_1_alg».proof.Proof.Spec
import Idealize.ShloMosaic.Lib.ValueIdx

noncomputable section

open scoped BigOperators
open Idealize.ShloMosaic Idealize.ShloMosaic.TcCoe Idealize.SL.Sem

namespace Cert.ReferenceIdeal.RefValue

open Cert.ReferenceIdeal Cert.ReferenceIdeal.Read Idealize.ShloMosaic.ValueIdx Cert.SvdLinear

/-- The reference's last stage is the specification of its five arguments. -/
theorem ref_eq (x0 : FVec Ideal S1024x4096 .f32) (x1 : FVec Ideal S4096x410 .f32) (x2 : FVec Ideal S410 .f32)
    (x3 : FVec Ideal S4096x410 .f32) (x4 : FVec Ideal S4096x4096 .f32) :
    val_main_v7 (F := Ideal) x0 x1 x2 x3 x4 = result x0 x1 x2 x3 x4 := by
  funext i
  rw [val_main_v7_apply]
  unfold result
  refine Finset.sum_congr rfl fun k _ => ?_
  -- the outer contraction reads the tokens at (t, k) and the transposed merged weight at (k, n), that is the merged
  -- weight at (n, k)
  have el : lidx_main_v7 i k = ix2 (i 0) k := funext fun a => Fin.ext (by
    match a with
    | ⟨0, _⟩ => rfl
    | ⟨1, _⟩ => rfl)
  have et : idx_main_v6 (ridx_main_v7 i k) = ix2 (i 1) k := funext fun a => Fin.ext (by
    match a with
    | ⟨0, _⟩ => rfl
    | ⟨1, _⟩ => rfl)
  rw [el, val_main_v6_apply, val_main_v5_apply, val_main_v4_apply, et]
  unfold merged
  show x0 (ix2 (i 0) k) * (x4 (ix2 (i 1) k) + _) = _
  congr 2
  refine Finset.sum_congr rfl fun r _ => ?_
  -- the inner contraction reads the scaled first factor at (n, r) and the transposed second factor at (r, k)
  have e1 : lidx_main_v4 (ix2 (i 1) k) r = ix2 (i 1) r := funext fun a => Fin.ext (by
    match a with
    | ⟨0, _⟩ => rfl
    | ⟨1, _⟩ => rfl)
  have e2 : idx_main_v0 (idx_main_v1 (ix2 (i 1) r)) = ix1 r := funext fun a => Fin.ext (by
    match a with
    | ⟨0, _⟩ => rfl)
  have e3 : idx_main_v3 (ridx_main_v4 (ix2 (i 1) k) r) = ix2 k r := funext fun a => Fin.ext (by
    match a with
    | ⟨0, _⟩ => rfl
    | ⟨1, _⟩ => rfl)
  rw [val_main_v2_apply, val_main_v1_apply, val_main_v0_apply, val_main_v3_apply, e1, e2, e3]
  rfl

end Cert.ReferenceIdeal.RefValue

end
-- ==== Proof.lean ====
/-
  A linear layer whose weight carries a low-rank correction: for tokens X [1024, 4096], a weight W [4096, 4096], factors
  U, V [4096, 410] and singular values σ [410],
      out (t, n) = Σ_k X (t, k) · ( W (n, k) + Σ_r (U (n, r) · σ r) · V (k, r) ).
  The reference forms the merged weight W + (U · diag σ) · Vᵀ whole and multiplies once. The kernel never forms it: on a
  4 × 8 grid it builds, per step, the [1024, 512] tile of the merged weight for one block of output features and one
  block of input features, multiplies the matching tile of tokens by it, and adds the product into a [1024, 1024]
  accumulator that is zeroed at the first input block and copied out at the last. Over the extended reals the narrowing to
  bf16 is the identity and both matrix products are plain sums, so the kernel's entry is zero plus eight partial sums of
  512 terms each, and the reference's entry is the one sum of 4096 terms: equal by regrouping a finite sum, which needs
  only that addition is commutative and associative. The precondition is never used.
  The three frames are the generated ones (the reference's is its generated run with the result dropped); the idealization
  rewrote nothing, so there is nothing to preserve.
-/
import proofs.«101790_j77240691851703_1_alg».proof.Defs
import proofs.«101790_j77240691851703_1_alg».proof.Proof.Gen.Kernel
import proofs.«101790_j77240691851703_1_alg».proof.Proof.Gen.Kernel.Frame
import proofs.«101790_j77240691851703_1_alg».proof.Proof.Gen.KernelIdeal
import proofs.«101790_j77240691851703_1_alg».proof.Proof.Gen.KernelIdeal.Frame
import proofs.«101790_j77240691851703_1_alg».proof.Proof.Gen.KernelIdeal.Value
import proofs.«101790_j77240691851703_1_alg».proof.Proof.Gen.ReferenceIdeal
import proofs.«101790_j77240691851703_1_alg».proof.Proof.Gen.ReferenceIdeal.Run
import proofs.«101790_j77240691851703_1_alg».proof.Proof.Gen.ReferenceIdeal.Read
import proofs.«101790_j77240691851703_1_alg».proof.Proof.Gen.Pre_finite_inputs
import proofs.«101790_j77240691851703_1_alg».proof.Proof.KernelValue
import proofs.«101790_j77240691851703_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the specification of arguments that agree: the kernel by its eight partial sums per column
    block, the reference by its composed host operations. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
